-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S16x64x64 : Shape := ⟨3, ![16, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) (main_arg1 : FVec F S16x512x64x64 .f32) (main_arg2 : IVec S16x64x64 32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  main_v8
-- ==== Kernel.lean ====
abbrev S16x512x64x64 : Shape := ⟨4, ![16, 512, 64, 64]⟩
abbrev S16x64x64 : Shape := ⟨3, ![16, 64, 64]⟩
abbrev S1x128x64x64 : Shape := ⟨4, ![1, 128, 64, 64]⟩
abbrev S1x64x64 : Shape := ⟨3, ![1, 64, 64]⟩
abbrev S16 : Shape := ⟨1, ![16]⟩
abbrev S16x1x1 : Shape := ⟨3, ![16, 1, 1]⟩
abbrev S_ : Shape := ⟨0, ![]⟩
abbrev S65536 : Shape := ⟨1, ![65536]⟩
abbrev S80 : Shape := ⟨1, ![80]⟩
abbrev S65536x1 : Shape := ⟨2, ![65536, 1]⟩

abbrev nBuf : Space → Nat
  | .hbm => 68
  | .vmem => 7
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x64x64, .i32⟩
  | .hbm, ⟨3, _⟩ => ⟨S16x64x64, .f32⟩
  | .hbm, ⟨4, _⟩ => ⟨S16, .i32⟩
  | .hbm, ⟨5, _⟩ => ⟨S16x1x1, .i32⟩
  | .hbm, ⟨6, _⟩ => ⟨S_, .i32⟩
  | .hbm, ⟨7, _⟩ => ⟨S16x1x1, .i32⟩
  | .hbm, ⟨8, _⟩ => ⟨S16x1x1, .i32⟩
  | .hbm, ⟨9, _⟩ => ⟨S16x64x64, .i32⟩
  | .hbm, ⟨10, _⟩ => ⟨S16x64x64, .i32⟩
  | .hbm, ⟨11, _⟩ => ⟨S65536, .i32⟩
  | .hbm, ⟨12, _⟩ => ⟨S65536, .f32⟩
  | .hbm, ⟨13, _⟩ => ⟨S_, .f32⟩
  | .hbm, ⟨14, _⟩ => ⟨S80, .f32⟩
  | .hbm, ⟨15, _⟩ => ⟨S65536x1, .i32⟩
  | .hbm, ⟨16, _⟩ => ⟨S80, .f32⟩
  | .hbm, ⟨17, _⟩ => ⟨S_, .f32⟩
  | .hbm, ⟨18, _⟩ => ⟨S65536, .f32⟩
  | .hbm, ⟨19, _⟩ => ⟨S_, .f32⟩
  | .hbm, ⟨20, _⟩ => ⟨S80, .f32⟩
  | .hbm, ⟨21, _⟩ => ⟨S65536x1, .i32⟩
  | .hbm, ⟨22, _⟩ => ⟨S80, .f32⟩
  | .hbm, ⟨23, _⟩ => ⟨S_, .f32⟩
  | .hbm, ⟨24, _⟩ => ⟨S80, .f32⟩
  | .hbm, ⟨25, _⟩ => ⟨S80, .f32⟩
  | .hbm, ⟨26, _⟩ => ⟨S80, .f32⟩
  | .hbm, ⟨27, _⟩ => ⟨S_, .i32⟩
  | .hbm, ⟨28, _⟩ => ⟨S65536, .i32⟩
  | .hbm, ⟨29, _⟩ => ⟨S65536, .i1⟩
  | .hbm, ⟨30, _⟩ => ⟨S_, .i32⟩
  | .hbm, ⟨31, _⟩ => ⟨S65536, .i32⟩
  | .hbm, ⟨32, _⟩ => ⟨S65536, .i32⟩
  | .hbm, ⟨33, _⟩ => ⟨S65536, .i32⟩
  | .hbm, ⟨34, _⟩ => ⟨S65536x1, .i32⟩
  | .hbm, ⟨35, _⟩ => ⟨S65536, .f32⟩
  | .hbm, ⟨36, _⟩ => ⟨S16x64x64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S16x64x64, .f32⟩
  | .hbm, ⟨44, _⟩ => ⟨S16x64x64, .f32⟩
  | .hbm, ⟨45, _⟩ => ⟨S_, .f32⟩
  | .hbm, ⟨46, _⟩ => ⟨S16x64x64, .f32⟩
  | .hbm, ⟨47, _⟩ => ⟨S16x64x64, .f32⟩
  | .hbm, ⟨48, _⟩ => ⟨S16x64x64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16x64x64, .f32⟩
  | .hbm, ⟨53, _⟩ => ⟨S16x64x64, .f32⟩
  | .hbm, ⟨54, _⟩ => ⟨S_, .f32⟩
  | .hbm, ⟨55, _⟩ => ⟨S16x64x64, .f32⟩
  | .hbm, ⟨56, _⟩ => ⟨S16x64x64, .f32⟩
  | .hbm, ⟨57, _⟩ => ⟨S_, .f32⟩
  | .hbm, ⟨58, _⟩ => ⟨S16x64x64, .f32⟩
  | .hbm, ⟨59, _⟩ => ⟨S16x64x64, .f32⟩
  | .hbm, ⟨60, _⟩ => ⟨S_, .f32⟩
  | .hbm, ⟨61, _⟩ => ⟨S16x64x64, .f32⟩
  | .hbm, ⟨62, _⟩ => ⟨S16x64x64, .f32⟩
  | .hbm, ⟨63, _⟩ => ⟨S16x64x64, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S1x128x64x64, .f32⟩
  | .local _ .vmem, ⟨1, _⟩ => ⟨S1x128x64x64, .f32⟩
  | .local _ .vmem, ⟨2, _⟩ => ⟨S1x128x64x64, .f32⟩
  | .local _ .vmem, ⟨3, _⟩ => ⟨S1x128x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_cst_10 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_14 : BitVec 32 := 0#32
  let v15 : BitVec 1 := Scalar.cmpi .ne v14 c0_i32_14
  v15

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x64x64_S1x64x64_0_0_0 : ∀ a, (![0, 0, 0] : Fin 3 → Nat) a + S1x64x64.size a ≤ S1x64x64.size a
  h_S1x64x64 : 0 < S1x64x64.numel
  shapeCasts_S1x64x64_S1x64x64 : S1x64x64.ShapeCasts S1x64x64
  inb_S1x128x64x64_S1x128x64x64_0_0_0_0 : ∀ a, (![0, 0, 0, 0] : Fin 4 → Nat) a + S1x128x64x64.size a ≤ S1x128x64x64.size a
  h_S1x128x64x64 : 0 < S1x128x64x64.numel
  reduces_S1x128x64x64_S1x64x64 : S1x128x64x64.Reduces [1] S1x64x64
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x64x64_0_1_2 : S16x1x1.BroadcastsInDim S16x64x64 (![0, 1, 2] : Fin 3 → Fin S16x64x64.rank)
  shapeCasts_S16x64x64_S65536 : S16x64x64.ShapeCasts S65536
  bcast_S_S80 : S_.BroadcastsInDim S80 (![] : Fin 0 → Fin S80.rank)
  bcast_S65536_S65536x1_0 : S65536.BroadcastsInDim S65536x1 (![0] : Fin 1 → Fin S65536x1.rank)
  bcast_S_S65536 : S_.BroadcastsInDim S65536 (![] : Fin 0 → Fin S65536.rank)
  shapeCasts_S65536_S16x64x64 : S65536.ShapeCasts S16x64x64
  reducesTo_S16x64x64_S_d0_1_2 : S16x64x64.ReducesTo [0, 1, 2] S_
  h_S_ : 0 < S_.numel
  bcast_S_S16x64x64 : S_.BroadcastsInDim S16x64x64 (![] : Fin 0 → Fin S16x64x64.rank)
  scatter_S80_S65536x1_S65536_n_0_0_1_wf : ScatterDims.WF S80 S65536x1 S65536 [] [0] [0] 1
  gather_S80_S65536x1_S65536_n_0_n_n_0_1_1_wf : GatherDims.WF S80 S65536x1 S65536 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x64.size a ≤ S16x512x64x64.size a
  hwx0_0 : ∀ i : grid0.Coords, EltTy.bits .f32 = 32 ∨ (Rect.block (s := S16x512x64x64) S1x128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64x64.size a ≤ S16x512x64x64.size a
  hwx0_1 : ∀ i : grid0.Coords, EltTy.bits .f32 = 32 ∨ (Rect.block (s := S16x512x64x64) S1x128x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S16x64x64.size a
  hwx0_2 : ∀ i : grid0.Coords, EltTy.bits .f32 = 32 ∨ (Rect.block (s := S16x64x64) S1x64x64.size (cc0_transform_2 i) (hinb0_2 i)).WholeWords (EltTy.packing .f32)

variable [Facts₀]

def scatter_S80_S65536x1_S65536_n_0_0_1 : ScatterDims S80 S65536x1 S65536 where
  updateWindowDims := []
  insertedWindowDims := [0]
  scatterDimsToOperandDims := [0]
  indexVectorDim := 1
  wf := scatter_S80_S65536x1_S65536_n_0_0_1_wf
def gather_S80_S65536x1_S65536_n_0_n_n_0_1_1 : GatherDims S80 S65536x1 S65536 where
  offsetDims := []
  collapsedSliceDims := [0]
  operandBatchingDims := []
  startIndicesBatchingDims := []
  startIndexMap := [0]
  indexVectorDim := 1
  sliceSizes := ![1]
  wf := gather_S80_S65536x1_S65536_n_0_n_n_0_1_1_wf

abbrev win0_0 : Pipeline.Window sig grid0 :=
  Pipeline.Window.ofSpec (Memref.whole main_arg0) S1x128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x512x64x64 : Shape := ⟨4, ![16, 512, 64, 64]⟩
abbrev S16x64x64 : Shape := ⟨3, ![16, 64, 64]⟩
abbrev S_ : Shape := ⟨0, ![]⟩
abbrev S16 : Shape := ⟨1, ![16]⟩
abbrev S16x1x1 : Shape := ⟨3, ![16, 1, 1]⟩
abbrev S65536 : Shape := ⟨1, ![65536]⟩
abbrev S80 : Shape := ⟨1, ![80]⟩
abbrev S65536x1 : Shape := ⟨2, ![65536, 1]⟩

abbrev nBuf : Space → Nat
  | .hbm => 74
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x64x64, .i32⟩
  | .hbm, ⟨3, _⟩ => ⟨S16x512x64x64, .f32⟩
  | .hbm, ⟨4, _⟩ => ⟨S16x512x64x64, .f32⟩
  | .hbm, ⟨5, _⟩ => ⟨S_, .f32⟩
  | .hbm, ⟨6, _⟩ => ⟨S16x64x64, .f32⟩
  | .hbm, ⟨7, _⟩ => ⟨S_, .f32⟩
  | .hbm, ⟨8, _⟩ => ⟨S16x64x64, .f32⟩
  | .hbm, ⟨9, _⟩ => ⟨S16x64x64, .f32⟩
  | .hbm, ⟨10, _⟩ => ⟨S16, .i32⟩
  | .hbm, ⟨11, _⟩ => ⟨S16x1x1, .i32⟩
  | .hbm, ⟨12, _⟩ => ⟨S_, .i32⟩
  | .hbm, ⟨13, _⟩ => ⟨S16x1x1, .i32⟩
  | .hbm, ⟨14, _⟩ => ⟨S16x1x1, .i32⟩
  | .hbm, ⟨15, _⟩ => ⟨S16x64x64, .i32⟩
  | .hbm, ⟨16, _⟩ => ⟨S16x64x64, .i32⟩
  | .hbm, ⟨17, _⟩ => ⟨S65536, .i32⟩
  | .hbm, ⟨18, _⟩ => ⟨S65536, .f32⟩
  | .hbm, ⟨19, _⟩ => ⟨S_, .f32⟩
  | .hbm, ⟨20, _⟩ => ⟨S80, .f32⟩
  | .hbm, ⟨21, _⟩ => ⟨S65536x1, .i32⟩
  | .hbm, ⟨22, _⟩ => ⟨S80, .f32⟩
  | .hbm, ⟨23, _⟩ => ⟨S_, .f32⟩
  | .hbm, ⟨24, _⟩ => ⟨S65536, .f32⟩
  | .hbm, ⟨25, _⟩ => ⟨S_, .f32⟩
  | .hbm, ⟨26, _⟩ => ⟨S80, .f32⟩
  | .hbm, ⟨27, _⟩ => ⟨S65536x1, .i32⟩
  | .hbm, ⟨28, _⟩ => ⟨S80, .f32⟩
  | .hbm, ⟨29, _⟩ => ⟨S_, .f32⟩
  | .hbm, ⟨30, _⟩ => ⟨S80, .f32⟩
  | .hbm, ⟨31, _⟩ => ⟨S80, .f32⟩
  | .hbm, ⟨32, _⟩ => ⟨S80, .f32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536, .f32⟩
  | .hbm, ⟨42, _⟩ => ⟨S16x64x64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S16x64x64, .f32⟩
  | .hbm, ⟨50, _⟩ => ⟨S16x64x64, .f32⟩
  | .hbm, ⟨51, _⟩ => ⟨S_, .f32⟩
  | .hbm, ⟨52, _⟩ => ⟨S16x64x64, .f32⟩
  | .hbm, ⟨53, _⟩ => ⟨S16x64x64, .f32⟩
  | .hbm, ⟨54, _⟩ => ⟨S16x64x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x64x64, .f32⟩
  | .hbm, ⟨59, _⟩ => ⟨S16x64x64, .f32⟩
  | .hbm, ⟨60, _⟩ => ⟨S_, .f32⟩
  | .hbm, ⟨61, _⟩ => ⟨S16x64x64, .f32⟩
  | .hbm, ⟨62, _⟩ => ⟨S16x64x64, .f32⟩
  | .hbm, ⟨63, _⟩ => ⟨S_, .f32⟩
  | .hbm, ⟨64, _⟩ => ⟨S16x64x64, .f32⟩
  | .hbm, ⟨65, _⟩ => ⟨S16x64x64, .f32⟩
  | .hbm, ⟨66, _⟩ => ⟨S_, .f32⟩
  | .hbm, ⟨67, _⟩ => ⟨S16x64x64, .f32⟩
  | .hbm, ⟨68, _⟩ => ⟨S16x64x64, .f32⟩
  | .hbm, ⟨69, _⟩ => ⟨S16x64x64, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_cst_12 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v39 : Ref sig .tc := ⟨.hbm, 62, rfl⟩
abbrev main_cst_13 : Ref sig .tc := ⟨.hbm, 63, rfl⟩
abbrev main_v40 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_15 : Ref sig .tc := ⟨.hbm, 70, rfl⟩
abbrev main_v45 : Ref sig .tc := ⟨.hbm, 71, rfl⟩
abbrev main_cst_16 : Ref sig .tc := ⟨.hbm, 72, rfl⟩
abbrev main_v46 : Ref sig .tc := ⟨.hbm, 73, rfl⟩

abbrev nD : Nat := 1
abbrev τ : Topo := Topo.v7x

variable {F : FTy → Type} [FloatOps F]

class Facts₀ : Prop where
  reducesTo_S16x512x64x64_S16x64x64_d1 : S16x512x64x64.ReducesTo [1] S16x64x64
  h_S_ : 0 < S_.numel
  bcast_S_S16x64x64 : S_.BroadcastsInDim S16x64x64 (![] : Fin 0 → Fin S16x64x64.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x64x64_0_1_2 : S16x1x1.BroadcastsInDim S16x64x64 (![0, 1, 2] : Fin 3 → Fin S16x64x64.rank)
  shapeCasts_S16x64x64_S65536 : S16x64x64.ShapeCasts S65536
  bcast_S_S80 : S_.BroadcastsInDim S80 (![] : Fin 0 → Fin S80.rank)
  bcast_S65536_S65536x1_0 : S65536.BroadcastsInDim S65536x1 (![0] : Fin 1 → Fin S65536x1.rank)
  bcast_S_S65536 : S_.BroadcastsInDim S65536 (![] : Fin 0 → Fin S65536.rank)
  shapeCasts_S65536_S16x64x64 : S65536.ShapeCasts S16x64x64
  reducesTo_S16x64x64_S_d0_1_2 : S16x64x64.ReducesTo [0, 1, 2] S_
  scatter_S80_S65536x1_S65536_n_0_0_1_wf : ScatterDims.WF S80 S65536x1 S65536 [] [0] [0] 1
  gather_S80_S65536x1_S65536_n_0_n_n_0_1_1_wf : GatherDims.WF S80 S65536x1 S65536 [] [0] [] [0] [] 1 ![1]

variable [Facts₀]

def scatter_S80_S65536x1_S65536_n_0_0_1 : ScatterDims S80 S65536x1 S65536 where
  updateWindowDims := []
  insertedWindowDims := [0]
  scatterDimsToOperandDims := [0]
  indexVectorDim := 1
  wf := scatter_S80_S65536x1_S65536_n_0_0_1_wf
def gather_S80_S65536x1_S65536_n_0_n_n_0_1_1 : GatherDims S80 S65536x1 S65536 where
  offsetDims := []
  collapsedSliceDims := [0]
  operandBatchingDims := []
  startIndicesBatchingDims := []
  startIndexMap := [0]
  indexVectorDim := 1
  sliceSizes := ![1]
  wf := gather_S80_S65536x1_S65536_n_0_n_n_0_1_1_wf

class Facts : Prop extends Facts₀ where

variable [Facts]
-- ==== Proof.Tail.lean ====
/-
  The part of the loss that both programs compute in the same way, as ONE function of two arrays:
  the per-pixel channel mean `lm : f32[16,64,64]` and the integer region mask `mk : i32[16,64,64]`.

  Pixel (b, h, w) belongs to segment `mk (b,h,w) + 5 b` (80 segments: 16 images, 5 region classes). The
  segment mean of `lm` — a scatter-add of `lm` over a scatter-add of ones, the count floored at 1 — is
  gathered back to every pixel (a negative id wrapped by 80 first), giving the weight array `w`. With
  `M = max w`, the weight is normalised to `w / (M + ε)` when `M > 0` and shifted to `w + ε` otherwise,
  clipped to [0, 1], and the result is the mean over all 65536 pixels of `lm · (2 w + 1)`.

  Nothing below is ever opened: the two programs differ only in how they produce `lm`, so their equality
  is the congruence of this function in its first argument.
-/
import proofs.«100840_j39676907888504_1_alg».proof.KernelIdeal

noncomputable section

namespace Cert.RegionLoss

open Idealize.ShloMosaic Cert.KernelIdeal Cert.KernelIdeal.Facts₀

variable {F : FTy → Type} [FloatOps F] [Cert.KernelIdeal.Facts]

/-- The segment id of every pixel, flattened row-major: `mk + 5 · (image index)`. -/
def segIds (mk : (⟨S16x64x64, .i32⟩ : BufTy).Contents (Elt F)) : (⟨S65536, .i32⟩ : BufTy).Contents (Elt F) :=
  shapeCast _ (addi mk (broadcastInDim S16x64x64 ![0, 1, 2] bcast_S16x1x1_S16x64x64_0_1_2
    (muli (broadcastInDim S16x1x1 ![0] bcast_S16_S16x1x1_0 (iotaInDim S16 32 0))
      (broadcastInDim S16x1x1 ![] bcast_S_S16x1x1 (constantI S_ 32 5#32))))) shapeCasts_S16x64x64_S65536

/-- The sum of `u` over each of the 80 segments (ids outside [0, 80) contribute nowhere). -/
def segSum (seg : (⟨S65536, .i32⟩ : BufTy).Contents (Elt F)) (u : (⟨S65536, .f32⟩ : BufTy).Contents (Elt F)) :
    (⟨S80, .f32⟩ : BufTy).Contents (Elt F) :=
  Host.scatterAdd scatter_S80_S65536x1_S65536_n_0_0_1 (broadcastInDim S80 ![] bcast_S_S80 (constant S_ .f32 0x00000000#32))
    (broadcastInDim S65536x1 ![0] bcast_S65536_S65536x1_0 seg) u

/-- The mean of `lm` over each segment: its sum over the segment's size, the size floored at one. -/
def segMean (seg : (⟨S65536, .i32⟩ : BufTy).Contents (Elt F)) (lm : (⟨S16x64x64, .f32⟩ : BufTy).Contents (Elt F)) :
    (⟨S80, .f32⟩ : BufTy).Contents (Elt F) :=
  Host.divf (segSum seg (shapeCast _ lm shapeCasts_S16x64x64_S65536))
    (maximumf (segSum seg (broadcastInDim S65536 ![] bcast_S_S65536 (constant S_ .f32 0x3F800000#32)))
      (broadcastInDim S80 ![] bcast_S_S80 (constant S_ .f32 0x3F800000#32)))

/-- Every pixel's weight before normalisation: the mean of its own segment (a negative id first wrapped by 80). -/
def pixelMean (seg : (⟨S65536, .i32⟩ : BufTy).Contents (Elt F)) (lm : (⟨S16x64x64, .f32⟩ : BufTy).Contents (Elt F)) :
    (⟨S16x64x64, .f32⟩ : BufTy).Contents (Elt F) :=
  shapeCast _ (Host.gather gather_S80_S65536x1_S65536_n_0_n_n_0_1_1 (segMean seg lm)
    (broadcastInDim S65536x1 ![0] bcast_S65536_S65536x1_0
      (select (cmpi .slt seg (broadcastInDim S65536 ![] bcast_S_S65536 (constantI S_ 32 0#32)))
        (addi seg (broadcastInDim S65536 ![] bcast_S_S65536 (constantI S_ 32 80#32))) seg))) shapeCasts_S65536_S16x64x64

/-- The largest weight (from -∞). -/
def peak (w : (⟨S16x64x64, .f32⟩ : BufTy).Contents (Elt F)) : (⟨S_, .f32⟩ : BufTy).Contents (Elt F) :=
  Host.reduce FloatOps.maximumf w (constant S_ .f32 0xFF800000#32) reducesTo_S16x64x64_S_d0_1_2 h_S_

/-- Normalised by the peak plus ε where the peak is positive, shifted by ε otherwise; then clipped to [0, 1]. -/
def clipped (w : (⟨S16x64x64, .f32⟩ : BufTy).Contents (Elt F)) : (⟨S16x64x64, .f32⟩ : BufTy).Contents (Elt F) :=
  minimumf (broadcastInDim S16x64x64 ![] bcast_S_S16x64x64 (id (constant S_ .f32 0x3F800000#32)))
    (maximumf (broadcastInDim S16x64x64 ![] bcast_S_S16x64x64 (id (constant S_ .f32 0x00000000#32)))
      (select (broadcastInDim S16x64x64 ![] bcast_S_S16x64x64 (cmpf .ogt (peak w) (constant S_ .f32 0x00000000#32)))
        (Host.divf w (broadcastInDim S16x64x64 ![] bcast_S_S16x64x64 (addf (peak w) (constant S_ .f32 0x358637BD#32))))
        (addf w (broadcastInDim S16x64x64 ![] bcast_S_S16x64x64 (constant S_ .f32 0x358637BD#32)))))

/-- The loss from the channel mean and the mask: the mean over the 65536 pixels of `lm · (2 · weight + 1)`. -/
def regionLoss (lm : (⟨S16x64x64, .f32⟩ : BufTy).Contents (Elt F)) (mk : (⟨S16x64x64, .i32⟩ : BufTy).Contents (Elt F)) :
    (⟨S_, .f32⟩ : BufTy).Contents (Elt F) :=
  Host.divf (Host.reduceAdd
    (mulf lm (addf (mulf (clipped (pixelMean (segIds mk) lm)) (broadcastInDim S16x64x64 ![] bcast_S_S16x64x64 (constant S_ .f32 0x40000000#32)))
      (broadcastInDim S16x64x64 ![] bcast_S_S16x64x64 (constant S_ .f32 0x3F800000#32))))
    (constant S_ .f32 0x00000000#32) reducesTo_S16x64x64_S_d0_1_2 h_S_) (constant S_ .f32 0x47800000#32)

end Cert.RegionLoss

end
-- ==== Proof.KernelTail.lean ====
/-
  The kernel's result read as `regionLoss` of the array its pallas_call leaves.

  After the one pallas_call, the program's remaining host operations are exactly `regionLoss` applied to the
  call's output array (window 2, `%0`) and to the mask argument, which no operation writes. The frame run
  states the final contents of every buffer outside the pipeline's arrays as those operations evaluated on
  the memory the region leaves: the pipeline's arrays at what the region wrote, everything else as launched.
-/
import proofs.«100840_j39676907888504_1_alg».proof.Defs
import proofs.«100840_j39676907888504_1_alg».proof.Proof.Gen.KernelIdeal.Frame
import proofs.«100840_j39676907888504_1_alg».proof.Proof.Tail
import Idealize.ShloMosaic.Lib.StableHlo.Run
import Idealize.ShloMosaic.Lib.Pipeline.Value

set_option maxRecDepth 16384

noncomputable section

namespace Cert.RegionLoss

open Idealize.ShloMosaic Idealize.ShloMosaic.TcCoe Idealize.SL.Sem Idealize.ShloMosaic.StableHlo
open Cert.KernelIdeal Cert.KernelIdeal.Gen
open Idealize.ShloMosaic.Pipeline (Dat)

variable {F : FTy → Type} [FloatOps F]
variable (m : (ℓ : Loc nD τ sig) → Buf (Elt F) ℓ)

/-- The memory the region leaves on core `c`: the pipeline's three arrays at their final contents, every other
    buffer as launched. -/
abbrev afterRegion (c : Dev nD) : Valuation τ sig (Elt F) :=
  Pipeline.withArrays (cfgs 0).spec c (V0 m c) (fun w => (dats m 0 c).arrAt w (cfgs 0).N)

set_option maxHeartbeats 28400000 in
/-- The host operations after the region compute `regionLoss` of the output array and the mask as the region
    leaves them. -/
theorem tail_is_regionLoss (c : Dev nD) :
    Pipeline.afterTail₀ cfgs (dats m) 0 (V0 m) [hostOps1, hostOps1_1, hostOps1_2, hostOps1_3, hostOps1_4] c main_v42
      = regionLoss (F := F) (afterRegion m c (Proc.devRef .tc main_v0)) (afterRegion m c (Proc.devRef .tc main_arg2)) := by
  unfold Pipeline.afterTail₀
  simp only [hostOps1, hostOps1_1, hostOps1_2, hostOps1_3, hostOps1_4, List.flatten_cons, List.flatten_nil, List.append_nil,
    List.cons_append, List.nil_append]
  after_results_simp
  simp only [TRef.ofBuf, TRef.toBuf, cast_eq]
  unfold regionLoss clipped peak pixelMean segMean segSum segIds
  rfl

/-- The region's output array is window 2's array. -/
theorem afterRegion_out (c : Dev nD) : afterRegion m c (Proc.devRef .tc main_v0) = (dats m 0 c).arrAt 2 cfg0.N :=
  Pipeline.withArrays_arr spec0 launch0.win.arr_inj c _ _ 2

/-- The mask is no array of the pipeline: it is as launched. -/
theorem afterRegion_mask (c : Dev nD) : afterRegion m c (Proc.devRef .tc main_arg2) = m ((c : Thread nD τ).loc main_arg2) :=
  (Pipeline.withArrays_of_ne spec0 c (V0 m c) _ main_arg2 (by exact (by decide : ∀ w, Pipeline.arrRef spec0 w ≠ main_arg2))).trans
    (V_main_arg2 m c)

end Cert.RegionLoss

end
-- ==== Proof.KernelPieces.lean ====
/-
  What one grid point of the kernel leaves behind, as values.

  The kernel walks a 16 × 4 grid: image `b`, channel chunk `cc`. At each point it holds a block `x0` of
  `feature_rec` and a block `x1` of `feature_align`, each 128 channels of one image, and a scratch
  accumulator carried from point to point. Write `chunkSq x0 x1` for the sum over the block's 128 channels
  of `(x0 - x1)²`. Then:
    at the first chunk of an image the scratch is reset and ends at `0 + chunkSq x0 x1`;
    at the other chunks it ends at `(what the point before left) + chunkSq x0 x1`;
    at the last chunk the output block is, in addition, that new scratch value times the constant 2⁻⁹.
  Each statement holds for any reading of the float operations.
-/
import proofs.«100840_j39676907888504_1_alg».proof.Defs
import proofs.«100840_j39676907888504_1_alg».proof.Proof.Gen.KernelIdeal.Frame
import Idealize.ShloMosaic.Lib.Pipeline.Value
import Idealize.ShloMosaic.Lib.Tactic

set_option maxRecDepth 16384

noncomputable section

namespace Cert.RegionLoss

open Idealize.ShloMosaic Idealize.ShloMosaic.TcCoe Idealize.SL.Sem
open Cert.KernelIdeal Cert.KernelIdeal.Gen
open Idealize.ShloMosaic.Pipeline (Dat)

variable {F : FTy → Type} [FloatOps F]

theorem offsets3_zero : (![0, 0, 0] : Fin 3 → Nat) = fun _ => 0 := funext fun a => by fin_cases a <;> rfl
theorem offsets4_zero : (![0, 0, 0, 0] : Fin 4 → Nat) = fun _ => 0 := funext fun a => by fin_cases a <;> rfl

/-- The sum over a block's 128 channels of the squared difference of two blocks. -/
def chunkSq (x0 x1 : Vec F S1x128x64x64 .f32) : FVec F S1x64x64 .f32 :=
  multiReduction .add [1] S1x64x64 (mulf (subf x0 x1) (subf x0 x1)) 0x00000000#32 Gen.reduces_S1x128x64x64_S1x64x64 (.inl rfl) rfl

/-- The block of zeros the reset stores. -/
abbrev zeroBlk : Vec F S1x64x64 .f32 := broadcast S1x64x64 (Scalar.ofBits .f32 0x00000000#32)

/-- The block of the constant 0.001953125 = 2⁻⁹ the last chunk scales by. -/
abbrev scaleBlk : Vec F S1x64x64 .f32 := broadcast S1x64x64 (Scalar.ofBits .f32 0x3B000000#32)

/-- First chunk of an image: the scratch is zeroed, read back, and ends at `0 + chunkSq`. -/
theorem scratch_first (c : Dev nD) (i : grid0.Coords) (arg2 : Memref sig .tc .vmem S1x128x64x64 .f32) (harg2 : arg2.IsWhole) (arg3 : Memref sig .tc .vmem S1x128x64x64 .f32) (harg3 : arg3.IsWhole) (arg4 : Memref sig .tc .vmem S1x64x64 .f32) (harg4 : arg4.IsWhole) (arg5 : Memref sig .tc .vmem S1x64x64 .f32) (harg5 : arg5.IsWhole) (hc0 : cond0_0 i) (hc1 : ¬cond0_1 i)
    (x0 : Vec F S1x128x64x64 .f32) (x1 : Vec F S1x128x64x64 .f32) :
    sout0_A_0 c i arg2 harg2 arg3 harg3 arg4 harg4 arg5 harg5 hc0 hc1 x0 x1 = addf zeroBlk (chunkSq x0 x1) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x64x64) offsets3_zero, View.readCov_unit_zero (S := S1x64x64) _ offsets3_zero]
  unfold k0_pay2 k0_pay1 chunkSq
  simp only [View.readAt_eq_ld, harg2.read_unread, harg3.read_unread, View.ld_unit_zero (S := S1x128x64x64) offsets4_zero,
    shapeCast_self]

/-- A middle chunk: the scratch, found at `xs0`, ends at `xs0 + chunkSq`. -/
theorem scratch_middle (c : Dev nD) (i : grid0.Coords) (arg2 : Memref sig .tc .vmem S1x128x64x64 .f32) (harg2 : arg2.IsWhole) (arg3 : Memref sig .tc .vmem S1x128x64x64 .f32) (harg3 : arg3.IsWhole) (arg4 : Memref sig .tc .vmem S1x64x64 .f32) (harg4 : arg4.IsWhole) (arg5 : Memref sig .tc .vmem S1x64x64 .f32) (harg5 : arg5.IsWhole) (hc0 : ¬cond0_0 i) (hc1 : ¬cond0_1 i)
    (x0 : Vec F S1x128x64x64 .f32) (x1 : Vec F S1x128x64x64 .f32) (xs0 : Vec F S1x64x64 .f32) :
    sout0_B_0 c i arg2 harg2 arg3 harg3 arg4 harg4 arg5 harg5 hc0 hc1 x0 x1 xs0 = addf xs0 (chunkSq x0 x1) := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x64x64) offsets3_zero]
  unfold k0_pay2 chunkSq
  simp only [View.readAt_eq_ld, harg2.read_unread, harg3.read_unread, harg5.read_unread,
    View.ld_unit_zero (S := S1x128x64x64) offsets4_zero, View.ld_unit_zero (S := S1x64x64) offsets3_zero, shapeCast_self]

/-- The last chunk: the scratch, found at `xs0`, again ends at `xs0 + chunkSq`; -/
theorem scratch_last (c : Dev nD) (i : grid0.Coords) (arg2 : Memref sig .tc .vmem S1x128x64x64 .f32) (harg2 : arg2.IsWhole) (arg3 : Memref sig .tc .vmem S1x128x64x64 .f32) (harg3 : arg3.IsWhole) (arg4 : Memref sig .tc .vmem S1x64x64 .f32) (harg4 : arg4.IsWhole) (arg5 : Memref sig .tc .vmem S1x64x64 .f32) (harg5 : arg5.IsWhole) (hc0 : ¬cond0_0 i) (hc1 : cond0_1 i)
    (x0 : Vec F S1x128x64x64 .f32) (x1 : Vec F S1x128x64x64 .f32) (xs0 : Vec F S1x64x64 .f32) :
    sout0_C_0 c i arg2 harg2 arg3 harg3 arg4 harg4 arg5 harg5 hc0 hc1 x0 x1 xs0 = addf xs0 (chunkSq x0 x1) := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x64x64) offsets3_zero]
  unfold k0_pay2 chunkSq
  simp only [View.readAt_eq_ld, harg2.read_unread, harg3.read_unread, harg5.read_unread,
    View.ld_unit_zero (S := S1x128x64x64) offsets4_zero, View.ld_unit_zero (S := S1x64x64) offsets3_zero, shapeCast_self]

/-- and the output block is that value, read back from the scratch, times 2⁻⁹. -/
theorem out_last (c : Dev nD) (i : grid0.Coords) (arg2 : Memref sig .tc .vmem S1x128x64x64 .f32) (harg2 : arg2.IsWhole) (arg3 : Memref sig .tc .vmem S1x128x64x64 .f32) (harg3 : arg3.IsWhole) (arg4 : Memref sig .tc .vmem S1x64x64 .f32) (harg4 : arg4.IsWhole) (arg5 : Memref sig .tc .vmem S1x64x64 .f32) (harg5 : arg5.IsWhole) (hc0 : ¬cond0_0 i) (hc1 : cond0_1 i)
    (x0 : Vec F S1x128x64x64 .f32) (x1 : Vec F S1x128x64x64 .f32) (xs0 : Vec F S1x64x64 .f32) :
    out0_C_2 c i arg2 harg2 arg3 harg3 arg4 harg4 arg5 harg5 hc0 hc1 x0 x1 xs0
      = mulf (addf xs0 (chunkSq x0 x1)) scaleBlk := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x64x64) offsets3_zero, View.readCov_unit_zero (S := S1x64x64) _ offsets3_zero]
  unfold k0_pay3 k0_pay2 chunkSq
  simp only [View.readAt_eq_ld, harg2.read_unread, harg3.read_unread, harg5.read_unread,
    View.ld_unit_zero (S := S1x128x64x64) offsets4_zero, View.ld_unit_zero (S := S1x64x64) offsets3_zero, shapeCast_self]

end Cert.RegionLoss

end
-- ==== Proof.KernelAccum.lean ====
/-
  The accumulation over an image's four channel chunks.

  Points of the grid are numbered `t = 4 b + cc` (image `b`, chunk `cc`). The scratch after point `t` is
  `0 + (chunk sum at t)` when `cc = 0` and `(scratch after t - 1) + (chunk sum at t)` otherwise, and the output
  block is written only when `cc = 3`, as the new scratch times 2⁻⁹. Unrolling the three steps back from a
  point with `cc = 3` to its image's reset gives the output block as
  `((((0 + s₀) + s₁) + s₂) + s₃) · 2⁻⁹` with `sₖ` the chunk sum at point `t - 3 + k`.
-/
import proofs.«100840_j39676907888504_1_alg».proof.Proof.KernelPieces

set_option maxRecDepth 16384

noncomputable section

namespace Cert.RegionLoss

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ)

/-- The block of `feature_rec` the kernel holds at point `t`, -/
abbrev recBlk (c : Dev nD) (t : Fin cfg0.N) : Vec F S1x128x64x64 .f32 := iblk m c 0 t
/-- and the block of `feature_align`. -/
abbrev alignBlk (c : Dev nD) (t : Fin cfg0.N) : Vec F S1x128x64x64 .f32 := iblk m c 1 t

/-- The chunk sum at point `t`: over the 128 channels of its blocks, of the squared difference. -/
def chunkAt (c : Dev nD) (t : Fin cfg0.N) : FVec F S1x64x64 .f32 := chunkSq (recBlk m c t) (alignBlk m c t)

theorem grid_points : cfg0.N = 64 := N_0

/-- After the first chunk of an image the scratch holds `0 + ` that chunk's sum. -/
theorem scratch_after_first (c : Dev nD) (n : ℕ) (hn : n < cfg0.N) (h0 : n % 4 = 0) :
    (outsAt0 m c n hn).2 = addf zeroBlk (chunkAt m c ⟨n, hn⟩) := by
  have h1 : ¬n % 4 = 3 := by omega
  show (outsAt0 m c (⟨n, hn⟩ : Fin cfg0.N).val (⟨n, hn⟩ : Fin cfg0.N).isLt).2 = _
  rw [outsAt0_A m c ⟨n, hn⟩ h0 h1]
  dsimp only
  unfold chunkAt
  exact scratch_first (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
    ((hcond0_0 ⟨n, hn⟩).mpr h0) (fun h => h1 ((hcond0_1 ⟨n, hn⟩).mp h)) (iblk m c 0 ⟨n, hn⟩) (iblk m c 1 ⟨n, hn⟩)

/-- After a middle chunk it holds what the point before left plus this chunk's sum. -/
theorem scratch_after_middle (c : Dev nD) (n : ℕ) (hn : n < cfg0.N) (h0 : ¬n % 4 = 0) (h1 : ¬n % 4 = 3) :
    (outsAt0 m c n hn).2
      = addf (outsAt0 m c (n - 1) (Nat.lt_of_le_of_lt (Nat.sub_le _ _) hn)).2 (chunkAt m c ⟨n, hn⟩) := by
  show (outsAt0 m c (⟨n, hn⟩ : Fin cfg0.N).val (⟨n, hn⟩ : Fin cfg0.N).isLt).2 = _
  rw [outsAt0_B m c ⟨n, hn⟩ h0 h1]
  dsimp only
  unfold chunkAt
  exact scratch_middle (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
    (fun h => h0 ((hcond0_0 ⟨n, hn⟩).mp h)) (fun h => h1 ((hcond0_1 ⟨n, hn⟩).mp h)) (iblk m c 0 ⟨n, hn⟩) (iblk m c 1 ⟨n, hn⟩)
    (outsAt0 m c (n - 1) (Nat.lt_of_le_of_lt (Nat.sub_le _ _) hn)).2

/-- At the last chunk the output block is (what the point before left plus this chunk's sum) times 2⁻⁹. -/
theorem out_after_last (c : Dev nD) (n : ℕ) (hn : n < cfg0.N) (h0 : ¬n % 4 = 0) (h1 : n % 4 = 3) :
    (outsAt0 m c n hn).1
      = mulf (addf (outsAt0 m c (n - 1) (Nat.lt_of_le_of_lt (Nat.sub_le _ _) hn)).2 (chunkAt m c ⟨n, hn⟩)) scaleBlk := by
  show (outsAt0 m c (⟨n, hn⟩ : Fin cfg0.N).val (⟨n, hn⟩ : Fin cfg0.N).isLt).1 = _
  rw [outsAt0_C m c ⟨n, hn⟩ h0 h1]
  dsimp only
  unfold chunkAt
  exact out_last (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
    (fun h => h0 ((hcond0_0 ⟨n, hn⟩).mp h)) ((hcond0_1 ⟨n, hn⟩).mpr h1) (iblk m c 0 ⟨n, hn⟩) (iblk m c 1 ⟨n, hn⟩)
    (outsAt0 m c (n - 1) (Nat.lt_of_le_of_lt (Nat.sub_le _ _) hn)).2

/-- The point `k` steps before `t`. -/
abbrev back (t : Fin cfg0.N) (k : ℕ) : Fin cfg0.N := ⟨t.val - k, Nat.lt_of_le_of_lt (Nat.sub_le _ _) t.isLt⟩

/-- THE OUTPUT BLOCK at a write-back point `t` (`t ≡ 3 mod 4`): the four chunk sums of its image, accumulated from
    zero in order, times 2⁻⁹. -/
theorem out_at_writeback (c : Dev nD) (t : Fin cfg0.N) (h3 : t.val % 4 = 3) :
    (outsAt0 m c t.val t.isLt).1
      = mulf (addf (addf (addf (addf zeroBlk (chunkAt m c (back t 3))) (chunkAt m c (back t 2))) (chunkAt m c (back t 1)))
          (chunkAt m c t)) scaleBlk := by
  have hN : t.val < 64 := lt_of_lt_of_eq t.isLt grid_points
  have hl1 : t.val - 1 < cfg0.N := Nat.lt_of_le_of_lt (Nat.sub_le _ _) t.isLt
  have hl2 : t.val - 1 - 1 < cfg0.N := Nat.lt_of_le_of_lt (Nat.sub_le _ _) hl1
  have hl3 : t.val - 1 - 1 - 1 < cfg0.N := Nat.lt_of_le_of_lt (Nat.sub_le _ _) hl2
  rw [out_after_last m c t.val t.isLt (by omega) h3,
    scratch_after_middle m c (t.val - 1) hl1 (by omega) (by omega),
    scratch_after_middle m c (t.val - 1 - 1) hl2 (by omega) (by omega),
    scratch_after_first m c (t.val - 1 - 1 - 1) hl3 (by omega)]
  have e1 : (⟨t.val - 1, hl1⟩ : Fin cfg0.N) = back t 1 := rfl
  have e2 : (⟨t.val - 1 - 1, hl2⟩ : Fin cfg0.N) = back t 2 := Fin.ext (by show t.val - 1 - 1 = t.val - 2; omega)
  have e3 : (⟨t.val - 1 - 1 - 1, hl3⟩ : Fin cfg0.N) = back t 3 := Fin.ext (by show t.val - 1 - 1 - 1 = t.val - 3; omega)
  rw [e1, e2, e3]

end Cert.RegionLoss

end
-- ==== Proof.KernelArray.lean ====
/-
  From the blocks the kernel writes back to the whole output array.

  Point `t = 4 b + cc` holds channels `128 cc … 128 cc + 127` of image `b` of each input, and at `cc = 3`
  writes the output's block `b`: the 64 × 64 pixels of image `b`. So the output array, pixel (b, h, w), ends at
  `((((0 + s₀) + s₁) + s₂) + s₃) · 2⁻⁹` read at (h, w), where `sₖ` is the chunk sum of the two inputs' channels
  `128 k … 128 k + 127` of image `b`: the function `kernelMean` of the two input arrays. Every pixel lies in
  exactly the block its image's last point writes, so the blocks cover the array.
-/
import proofs.«100840_j39676907888504_1_alg».proof.Proof.KernelAccum
import Idealize.ShloMosaic.Lib.ValueIdx

set_option maxRecDepth 16384

noncomputable section

namespace Cert.RegionLoss

open Idealize.ShloMosaic Idealize.ShloMosaic.TcCoe Idealize.SL.Sem Idealize.ShloMosaic.ValueIdx
open Cert.KernelIdeal Cert.KernelIdeal.Gen
open Idealize.ShloMosaic.Pipeline (Dat)

variable {F : FTy → Type} [FloatOps F]
variable (m : (ℓ : Loc nD τ sig) → Buf (Elt F) ℓ)

/-- Channels `128 cc … 128 cc + 127` of image `bb` of a [16, 512, 64, 64] array, as a block. -/
def chanBlock (a : Vec F S16x512x64x64 .f32) (bb : Fin 16) (cc : Fin 4) : Vec F S1x128x64x64 .f32 :=
  fun x => a (ix4 bb (⟨128 * cc.val + (x 1).val, by have := cc.isLt; have h : (x 1).val < 128 := (x 1).isLt; omega⟩ : Fin 512)
    (⟨(x 2).val, (x 2).isLt⟩ : Fin 64) (⟨(x 3).val, (x 3).isLt⟩ : Fin 64))

/-- Image `bb`'s four chunk sums accumulated from zero, times 2⁻⁹: a 1 × 64 × 64 block. -/
def blockMean (a b : Vec F S16x512x64x64 .f32) (bb : Fin 16) : Vec F S1x64x64 .f32 :=
  mulf (addf (addf (addf (addf zeroBlk (chunkSq (chanBlock a bb 0) (chanBlock b bb 0)))
      (chunkSq (chanBlock a bb 1) (chanBlock b bb 1))) (chunkSq (chanBlock a bb 2) (chanBlock b bb 2)))
    (chunkSq (chanBlock a bb 3) (chanBlock b bb 3))) scaleBlk

/-- The kernel's output array as one function of its two input arrays. -/
def kernelMean (a b : Vec F S16x512x64x64 .f32) : Vec F S16x64x64 .f32 :=
  fun j => blockMean a b (⟨(j 0).val, (j 0).isLt⟩ : Fin 16)
    (ix3 (0 : Fin 1) (⟨(j 1).val, (j 1).isLt⟩ : Fin 64) (⟨(j 2).val, (j 2).isLt⟩ : Fin 64))

/-- The printed index maps over the grid: both inputs' block is (image, chunk, 0, 0), the output's (image, 0, 0). -/
theorem index_maps : ∀ t : Fin cfg0.N,
    win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 4) = t.val / 4 ∧ win0_1.index t (1 : Fin 4) = t.val % 4
    ∧ win0_1.index t (2 : Fin 4) = 0 ∧ win0_1.index t (3 : Fin 4) = 0
    ∧ win0_2.index t (0 : Fin 3) = t.val / 4 ∧ win0_2.index t (1 : Fin 3) = 0 ∧ win0_2.index t (2 : Fin 3) = 0 :=
  (by decide +kernel : ∀ t : Fin grid0.N, _)

/-- The image of point `t`, -/
abbrev imageOf (t : Fin cfg0.N) : Fin 16 := ⟨t.val / 4, by have := lt_of_lt_of_eq t.isLt grid_points; omega⟩
/-- and its chunk. -/
abbrev chunkOf (t : Fin cfg0.N) : Fin 4 := ⟨t.val % 4, Nat.mod_lt _ (by decide)⟩

/-- The `feature_rec` block at point `t` is its image's chunk of the array the region finds; -/
theorem recBlk_eq (c : Dev nD) (t : Fin cfg0.N) :
    recBlk m c t = chanBlock (V m c main_arg0) (imageOf t) (chunkOf t) := by
  obtain ⟨e0, e1, e2, e3, -⟩ := index_maps t
  funext x
  show V m c main_arg0 (((cfg0.win 0).blk t).view.emb x) = V m c main_arg0 _
  refine congrArg (V m c main_arg0) ?_
  funext a; apply Fin.ext
  match a with
  | ⟨0, _⟩ => show win0_0.index t (0 : Fin 4) * 1 + 1 * (x 0).val = t.val / 4; have h : (x 0).val < 1 := (x 0).isLt; omega
  | ⟨1, _⟩ => show win0_0.index t (1 : Fin 4) * 128 + 1 * (x 1).val = 128 * (t.val % 4) + (x 1).val; omega
  | ⟨2, _⟩ => show win0_0.index t (2 : Fin 4) * 64 + 1 * (x 2).val = (x 2).val; omega
  | ⟨3, _⟩ => show win0_0.index t (3 : Fin 4) * 64 + 1 * (x 3).val = (x 3).val; omega

/-- and likewise the `feature_align` block. -/
theorem alignBlk_eq (c : Dev nD) (t : Fin cfg0.N) :
    alignBlk m c t = chanBlock (V m c main_arg1) (imageOf t) (chunkOf t) := by
  obtain ⟨-, -, -, -, e0, e1, e2, e3, -⟩ := index_maps t
  funext x
  show V m c main_arg1 (((cfg0.win 1).blk t).view.emb x) = V m c main_arg1 _
  refine congrArg (V m c main_arg1) ?_
  funext a; apply Fin.ext
  match a with
  | ⟨0, _⟩ => show win0_1.index t (0 : Fin 4) * 1 + 1 * (x 0).val = t.val / 4; have h : (x 0).val < 1 := (x 0).isLt; omega
  | ⟨1, _⟩ => show win0_1.index t (1 : Fin 4) * 128 + 1 * (x 1).val = 128 * (t.val % 4) + (x 1).val; omega
  | ⟨2, _⟩ => show win0_1.index t (2 : Fin 4) * 64 + 1 * (x 2).val = (x 2).val; omega
  | ⟨3, _⟩ => show win0_1.index t (3 : Fin 4) * 64 + 1 * (x 3).val = (x 3).val; omega

/-- The chunk sum at point `t` is the chunk sum of its image's chunk of the two arrays. -/
theorem chunkAt_eq (c : Dev nD) (t : Fin cfg0.N) (bb : Fin 16) (cc : Fin 4) (hb : t.val / 4 = bb.val) (hc : t.val % 4 = cc.val) :
    chunkAt m c t = chunkSq (chanBlock (V m c main_arg0) bb cc) (chanBlock (V m c main_arg1) bb cc) := by
  unfold chunkAt
  rw [recBlk_eq, alignBlk_eq]
  have e1 : imageOf t = bb := Fin.ext hb
  have e2 : chunkOf t = cc := Fin.ext hc
  rw [e1, e2]

/-- The output block at a write-back point is its image's `blockMean`. -/
theorem out_block (c : Dev nD) (t : Fin cfg0.N) (h3 : t.val % 4 = 3) :
    (outsAt0 m c t.val t.isLt).1 = blockMean (V m c main_arg0) (V m c main_arg1) (imageOf t) := by
  have hN : t.val < 64 := lt_of_lt_of_eq t.isLt grid_points
  rw [out_at_writeback m c t h3,
    chunkAt_eq m c (back t 3) (imageOf t) 0 (by show (t.val - 3) / 4 = t.val / 4; omega) (by show (t.val - 3) % 4 = 0; omega),
    chunkAt_eq m c (back t 2) (imageOf t) 1 (by show (t.val - 2) / 4 = t.val / 4; omega) (by show (t.val - 2) % 4 = 1; omega),
    chunkAt_eq m c (back t 1) (imageOf t) 2 (by show (t.val - 1) / 4 = t.val / 4; omega) (by show (t.val - 1) % 4 = 2; omega),
    chunkAt_eq m c t (imageOf t) 3 rfl h3]
  rfl

/-- WHAT A WRITE-BACK POINT WRITES is its block of `kernelMean` of the arrays the region finds. -/
theorem flushed_eq (c : Dev nD) (t : Fin cfg0.N) (hf : (cfg0.win 2).flush t = true) :
    (dats m 0 c).flushed 2 t = ((cfg0.win 2).blk t).view.read (Elt F) (kernelMean (V m c main_arg0) (V m c main_arg1)) := by
  have h3 : t.val % 4 = 3 := (flush0_2 t).mp hf
  obtain ⟨-, -, -, -, -, -, -, -, e0, e1, e2⟩ := index_maps t
  show (cfg0.win 2).cut (grid0.coords t) ((dats m 0 c).after 2 t) = _
  rw [after0_2, out_block m c t h3]
  funext y
  show blockMean (V m c main_arg0) (V m c main_arg1) (imageOf t) ((cfg0.win 2).xinj (grid0.coords t) y)
    = kernelMean (V m c main_arg0) (V m c main_arg1) (((cfg0.win 2).blk t).view.emb y)
  unfold kernelMean
  refine congrArg₂ (blockMean (V m c main_arg0) (V m c main_arg1)) (Fin.ext ?_) (funext fun a => Fin.ext ?_)
  · show t.val / 4 = win0_2.index t (0 : Fin 3) * 1 + 1 * (y 0).val
    have h : (y 0).val < 1 := (y 0).isLt
    omega
  · match a with
    | ⟨0, _⟩ => show (y 0).val = 0; have h : (y 0).val < 1 := (y 0).isLt; omega
    | ⟨1, _⟩ => show (y 1).val = win0_2.index t (1 : Fin 3) * 64 + 1 * (y 1).val; omega
    | ⟨2, _⟩ => show (y 2).val = win0_2.index t (2 : Fin 3) * 64 + 1 * (y 2).val; omega

/-- An index of the output array is in point `t`'s block iff each coordinate is in the block's range. -/
theorem mem_block (t : Fin cfg0.N) (i : S16x64x64.Idx) :
    i ∈ ((cfg0.win 2).blk t).view.set ↔ ∀ a : Fin 3, win0_2.index t a * S1x64x64.size a ≤ (i a).val ∧ (i a).val < win0_2.index t a * S1x64x64.size a + S1x64x64.size a := by
  show i ∈ ((View.whole main_v0).slice (win0_2.rect t)).set ↔ _
  rw [View.set_slice_whole, Rect.mem_set_unit]
  exact Iff.rfl

/-- Pixel (b, h, w) is in the block image `b`'s last point writes. -/
theorem covered (i : S16x64x64.Idx) :
    ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 64 := (i 2).isLt
  let t : Fin cfg0.N := ⟨4 * (i 0).val + 3, by rw [grid_points]; omega⟩
  have ht : t.val = 4 * (i 0).val + 3 := rfl
  obtain ⟨-, -, -, -, -, -, -, -, e0, e1, e2⟩ := index_maps t
  refine ⟨t, (flush0_2 t).mpr (by omega), ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 64 ≤ (i 2).val ∧ (i 2).val < win0_2.index t (2 : Fin 3) * 64 + 64; omega

/-- THE OUTPUT ARRAY after the run: `kernelMean` of the two inputs as launched. -/
theorem out_array (c : Dev nD) :
    (dats m 0 c).arrAt 2 cfg0.N
      = kernelMean (m ((c : Thread nD τ).loc main_arg0)) (m ((c : Thread nD τ).loc main_arg1)) :=
  (dats m 0 c).arrAt_eq_of_cover 2 (kernelMean (V m c main_arg0) (V m c main_arg1)) (flushed_eq m c) covered

end Cert.RegionLoss

end
-- ==== Proof.KernelRun.lean ====
/-
  The kernel's run, read: its result is `regionLoss` of `kernelMean` of the two inputs and of the mask.

  The frame run ends with every buffer outside the pipeline's arrays at the later host operations' values on the
  memory the region leaves. Those operations are `regionLoss` of the region's output array and of the mask
  (the mask as launched), and the output array is `kernelMean` of the two inputs as launched. The three
  arguments end unchanged: the inputs are read-only windows, the mask is written by nothing.
-/
import proofs.«100840_j39676907888504_1_alg».proof.Proof.KernelTail
import proofs.«100840_j39676907888504_1_alg».proof.Proof.KernelArray

set_option maxRecDepth 16384

noncomputable section

namespace Cert.RegionLoss

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The value the kernel program returns, as a function of its three arguments as launched. -/
abbrev kernelResult (c : Dev nD) : (⟨S_, .f32⟩ : BufTy).Contents (Elt F) :=
  regionLoss (F := F) (kernelMean (m ((c : Thread nD τ).loc main_arg0)) (m ((c : Thread nD τ).loc main_arg1)))
    (m ((c : Thread nD τ).loc main_arg2))

/-- The host operations after the region, on what the region leaves, give `kernelResult`. -/
theorem tail_value (c : Dev nD) :
    Pipeline.afterTail₀ cfgs (dats m) 0 (V0 m) [hostOps1, hostOps1_1, hostOps1_2, hostOps1_3, hostOps1_4] c main_v42
      = kernelResult m c := by
  rw [tail_is_regionLoss, afterRegion_out, afterRegion_mask, out_array]

/-- Every weakly fair execution of the kernel program terminates with its result at `kernelResult` and its three
    arguments unchanged. -/
theorem kernel_run : θ_run defs (onTc (τ := τ) (main (F := F))) ⟨m, fun _ => 0, ρ⟩ fun r => ∀ c : Dev nD,
      r.2.mem ((c.tc : Thread nD τ).loc main_v42) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v42 (Pipeline.mem_restRefs_of main_v42 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.RegionLoss

end
-- ==== Proof.RefSide.lean ====
/-
  The reference read as `regionLoss` of its own channel mean.

  The reference's channel mean (its value `%4`) is the sum over the 512 channels of the squared difference, from
  zero, divided by 512. Everything after it is, operation for operation, the function `regionLoss` of that
  array and of the mask, so the reference's result is `regionLoss (channel mean) mask` by unfolding alone.
-/
import proofs.«100840_j39676907888504_1_alg».proof.Defs
import proofs.«100840_j39676907888504_1_alg».proof.Proof.Gen.ReferenceIdeal.Run
import proofs.«100840_j39676907888504_1_alg».proof.Proof.Gen.ReferenceIdeal.Read
import proofs.«100840_j39676907888504_1_alg».proof.Proof.Gen.KernelIdeal
import proofs.«100840_j39676907888504_1_alg».proof.Proof.Tail

noncomputable section

namespace Cert.RegionLoss

open Idealize.ShloMosaic Idealize.ShloMosaic.TcCoe Idealize.SL.Sem

variable {F : FTy → Type} [FloatOps F]

set_option maxRecDepth 8192 in
set_option maxHeartbeats 4000000 in
/-- The reference's result is the shared tail applied to its channel mean and to the mask. -/
theorem ref_result (m : (ℓ : Loc Cert.ReferenceIdeal.nD Cert.ReferenceIdeal.τ Cert.ReferenceIdeal.sig) → Buf (Elt F) ℓ)
    (c : Dev Cert.ReferenceIdeal.nD) :
    Cert.ReferenceIdeal.Value.res_main_v46 m c
      = regionLoss (F := F)
          (Cert.ReferenceIdeal.Read.val_main_v4 (F := F)
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1)))
          (m ((c.tc : Thread Cert.ReferenceIdeal.nD Cert.ReferenceIdeal.τ).loc Cert.ReferenceIdeal.main_arg2)) := by
  unfold Cert.ReferenceIdeal.Value.res_main_v46 regionLoss clipped peak pixelMean segMean segSum segIds
    Cert.ReferenceIdeal.Read.val_main_v4 Cert.ReferenceIdeal.Read.val_main_v3 Cert.ReferenceIdeal.Read.val_main_cst_0
    Cert.ReferenceIdeal.Read.val_main_v2 Cert.ReferenceIdeal.Read.val_main_cst Cert.ReferenceIdeal.Read.val_main_v1
    Cert.ReferenceIdeal.Read.val_main_v0
  rfl

end Cert.RegionLoss

end
-- ==== Proof.ChunkLaw.lean ====
/-
  The one algebraic law behind the certificate, on the extended reals.

  A sum over 512 channels is the sum of its four consecutive chunks of 128 (addition on the extended reals is
  commutative and associative, infinities included), and dividing by the real 512 is multiplying by its
  reciprocal 2⁻⁹, again at the infinities too. So accumulating four chunk sums from zero and scaling by 2⁻⁹
  gives exactly the mean "sum from zero, divided by 512". No finiteness of the terms is used.
-/
import Idealize.ShloMosaic.PureOps.Ideal
import Idealize.ShloMosaic.PureOps.Ideal.Laws
import Mathlib.Algebra.BigOperators.Fin
import Mathlib.Logic.Equiv.Fin.Basic

noncomputable section

namespace Cert.RegionLoss

open Idealize.ShloMosaic

/-- Channel `128 c + k`: offset `k` of chunk `c`. -/
def chan (c : Fin 4) (k : Fin 128) : Fin 512 := ⟨128 * c.val + k.val, by have := c.isLt; have := k.isLt; omega⟩

/-- A sum over the 512 channels, chunk by chunk. -/
theorem sum_by_chunks (f : Fin 512 → EReal) : ∑ k : Fin 512, f k = ∑ c : Fin 4, ∑ k : Fin 128, f (chan c k) := by
  have e := Equiv.sum_comp (finProdFinEquiv (m := 4) (n := 128)) f
  rw [← e, Fintype.sum_prod_type]
  refine Finset.sum_congr rfl fun c _ => Finset.sum_congr rfl fun k _ => congrArg f (Fin.ext ?_)
  show k.val + 128 * c.val = 128 * c.val + k.val
  omega

/-- The pattern of `512.0` denotes the real 512. -/
theorem ofBits_512 : Ideal.ofBits .f32 0x44000000#32 = ((512 : ℝ) : EReal) := by
  simp [Ideal.ofBits, Ideal.ieee, -EReal.coe_mul]; norm_num

/-- The pattern of `0.001953125` denotes the real 1/512. -/
theorem ofBits_inv512 : Ideal.ofBits .f32 0x3B000000#32 = ((1 / 512 : ℝ) : EReal) := by
  simp [Ideal.ofBits, Ideal.ieee, -EReal.coe_mul]; norm_num

/-- Four chunk sums accumulated from zero and scaled by 2⁻⁹ are the whole sum from zero divided by 512. -/
theorem chunks_scaled_eq_mean (f : Fin 512 → EReal) :
    ((((0 + ∑ k : Fin 128, f (chan 0 k)) + ∑ k : Fin 128, f (chan 1 k)) + ∑ k : Fin 128, f (chan 2 k))
        + ∑ k : Fin 128, f (chan 3 k)) * ((1 / 512 : ℝ) : EReal)
      = Ideal.div (0 + ∑ k : Fin 512, f k) ((512 : ℝ) : EReal) := by
  rw [Ideal.div_coe (by norm_num : (512 : ℝ) ≠ 0), sum_by_chunks, Fin.sum_univ_four]
  simp only [zero_add, add_assoc]

end Cert.RegionLoss

end
-- ==== Proof.MeanBridge.lean ====
/-
  The two channel means are one function, on the extended reals.

  At pixel (b, h, w), with `d k` the squared difference `(rec - align)²` at channel `k`:
    the kernel's array holds `((((0 + Σ_{k<128} d k) + Σ_{k<128} d (128 + k)) + Σ_{k<128} d (256 + k)) + Σ_{k<128} d (384 + k)) · 2⁻⁹`,
    the reference's holds `(0 + Σ_{k<512} d k) / 512`.
  A lane sum over one axis is a finite sum at this reading, the host's sum is its initial value plus the sum, and
  the two are equal by the chunk law: regrouping a sum, and division by 512 as multiplication by 2⁻⁹.
-/
import proofs.«100840_j39676907888504_1_alg».proof.Proof.KernelArray
import proofs.«100840_j39676907888504_1_alg».proof.Proof.ChunkLaw
import proofs.«100840_j39676907888504_1_alg».proof.Proof.Gen.ReferenceIdeal.Read
import Idealize.ShloMosaic.PureOps.Ideal.Laws

set_option maxRecDepth 16384

noncomputable section

namespace Cert.RegionLoss

open Idealize.ShloMosaic Idealize.ShloMosaic.TcCoe Idealize.SL.Sem Idealize.ShloMosaic.ValueIdx
open Cert.KernelIdeal

/-- A block's chunk sum at pixel (h, w): the sum over its 128 channels of the squared difference. -/
theorem chunkSq_apply (X Y : Vec Ideal S1x128x64x64 .f32) (h w : Fin 64) :
    chunkSq (F := Ideal) X Y (ix3 (0 : Fin 1) h w)
      = ∑ k : Fin 128, (X (ix4 (0 : Fin 1) k h w) - Y (ix4 (0 : Fin 1) k h w)) * (X (ix4 (0 : Fin 1) k h w) - Y (ix4 (0 : Fin 1) k h w)) := by
  unfold chunkSq
  refine (Ideal.multiReduction_add_single (mulf (subf X Y) (subf X Y)) 0x00000000#32 Gen.reduces_S1x128x64x64_S1x64x64
    (.inl rfl) rfl (ix3 (0 : Fin 1) h w)).trans ?_
  refine Finset.sum_congr rfl fun k _ => ?_
  have e : Gen.reduces_S1x128x64x64_S1x64x64.lift (ix3 (0 : Fin 1) h w) k = ix4 (0 : Fin 1) k h w :=
    funext fun a => Fin.ext (by match a with | ⟨0, _⟩ => rfl | ⟨1, _⟩ => rfl | ⟨2, _⟩ => rfl | ⟨3, _⟩ => rfl)
  rw [e]
  rfl

/-- The squared difference of the two inputs at channel `k` of pixel `j`. -/
def sqDiff (a b : Vec Ideal S16x512x64x64 .f32) (j : S16x64x64.Idx) (k : Fin 512) : EReal :=
  (a (Cert.ReferenceIdeal.Read.idx_main_v2 j k) - b (Cert.ReferenceIdeal.Read.idx_main_v2 j k))
    * (a (Cert.ReferenceIdeal.Read.idx_main_v2 j k) - b (Cert.ReferenceIdeal.Read.idx_main_v2 j k))

/-- Offset `k` of chunk `cc` of pixel `j`'s image, read through a block, is channel `128 cc + k` of the array. -/
theorem chanBlock_apply (a : Vec Ideal S16x512x64x64 .f32) (j : S16x64x64.Idx) (cc : Fin 4) (k : Fin 128) :
    chanBlock a (⟨(j 0).val, (j 0).isLt⟩ : Fin 16) cc
        (ix4 (0 : Fin 1) k (⟨(j 1).val, (j 1).isLt⟩ : Fin 64) (⟨(j 2).val, (j 2).isLt⟩ : Fin 64))
      = a (Cert.ReferenceIdeal.Read.idx_main_v2 j (chan cc k)) :=
  congrArg a (funext fun d => Fin.ext (by match d with | ⟨0, _⟩ => rfl | ⟨1, _⟩ => rfl | ⟨2, _⟩ => rfl | ⟨3, _⟩ => rfl))

/-- Chunk `cc`'s sum at pixel `j`. -/
theorem chunk_term (a b : Vec Ideal S16x512x64x64 .f32) (j : S16x64x64.Idx) (cc : Fin 4) :
    chunkSq (F := Ideal) (chanBlock a (⟨(j 0).val, (j 0).isLt⟩ : Fin 16) cc) (chanBlock b (⟨(j 0).val, (j 0).isLt⟩ : Fin 16) cc)
        (ix3 (0 : Fin 1) (⟨(j 1).val, (j 1).isLt⟩ : Fin 64) (⟨(j 2).val, (j 2).isLt⟩ : Fin 64))
      = ∑ k : Fin 128, sqDiff a b j (chan cc k) := by
  rw [chunkSq_apply]
  refine Finset.sum_congr rfl fun k _ => ?_
  rw [chanBlock_apply a j cc k, chanBlock_apply b j cc k]
  rfl

/-- THE BRIDGE: the kernel's output array is the reference's channel mean. -/
theorem kernelMean_eq_refMean (a b : Vec Ideal S16x512x64x64 .f32) :
    kernelMean (F := Ideal) a b = Cert.ReferenceIdeal.Read.val_main_v4 (F := Ideal) a b := by
  funext j
  rw [Cert.ReferenceIdeal.Read.val_main_v4_apply, Cert.ReferenceIdeal.Read.val_main_v2_apply,
    Cert.ReferenceIdeal.Read.val_main_v3_apply, Cert.ReferenceIdeal.Read.val_main_cst_0_apply,
    Cert.ReferenceIdeal.Read.val_main_cst_apply]
  simp only [Cert.ReferenceIdeal.Read.val_main_v1_apply, Cert.ReferenceIdeal.Read.val_main_v0_apply]
  unfold kernelMean blockMean
  simp only [mulf_apply, addf_apply, broadcast_apply]
  rw [chunk_term a b j 0, chunk_term a b j 1, chunk_term a b j 2, chunk_term a b j 3]
  show ((((Ideal.ofBits .f32 0x00000000#32 + _) + _) + _) + _) * Ideal.ofBits .f32 0x3B000000#32
    = Ideal.div (Ideal.ofBits .f32 0x00000000#32 + ∑ k : Fin 512, sqDiff a b j k) (Ideal.ofBits .f32 0x44000000#32)
  rw [Ideal.ofBits_zero_f32, ofBits_inv512, ofBits_512]
  exact chunks_scaled_eq_mean (sqDiff a b j)

end Cert.RegionLoss

end
-- ==== Proof.lean ====
/-
  The certificate of a region-reweighted reconstruction loss.

  Both programs take two feature arrays f32[16, 512, 64, 64] and an integer region mask i32[16, 64, 64] and return
  one number. Each first forms the per-pixel mean over the 512 channels of the squared difference of the two
  feature arrays, and then applies the same function of that mean and of the mask (`regionLoss`: segment means
  over (image, region class), gathered back as weights, normalised by their peak, clipped, and the weighted mean
  of the per-pixel values).

  They differ only in the channel mean. The kernel walks a 16 × 4 grid, adds the sum over 128 channels into a
  scratch accumulator that is reset at each image's first chunk, and at the fourth chunk writes the accumulator
  times 2⁻⁹. The reference sums all 512 channels from zero and divides by 512. On the extended reals these are the
  same number at every pixel: a finite sum may be regrouped, and dividing by 512 is multiplying by 2⁻⁹, also at the
  infinities, so finiteness of the inputs is not used.

  The three frame claims are the generated frame runs (the reference's is its generated run with the result
  dropped); the idealisation rewrote nothing, so `preserves` is trivial.
-/
import proofs.«100840_j39676907888504_1_alg».proof.Defs
import proofs.«100840_j39676907888504_1_alg».proof.Proof.Gen.Kernel
import proofs.«100840_j39676907888504_1_alg».proof.Proof.Gen.Kernel.Skeleton
import proofs.«100840_j39676907888504_1_alg».proof.Proof.Gen.Kernel.Launch
import proofs.«100840_j39676907888504_1_alg».proof.Proof.Gen.Kernel.Points
import proofs.«100840_j39676907888504_1_alg».proof.Proof.Gen.Kernel.Frame
import proofs.«100840_j39676907888504_1_alg».proof.Proof.Gen.KernelIdeal
import proofs.«100840_j39676907888504_1_alg».proof.Proof.Gen.KernelIdeal.Skeleton
import proofs.«100840_j39676907888504_1_alg».proof.Proof.Gen.KernelIdeal.Launch
import proofs.«100840_j39676907888504_1_alg».proof.Proof.Gen.KernelIdeal.Points
import proofs.«100840_j39676907888504_1_alg».proof.Proof.Gen.KernelIdeal.Frame
import proofs.«100840_j39676907888504_1_alg».proof.Proof.Gen.ReferenceIdeal
import proofs.«100840_j39676907888504_1_alg».proof.Proof.Gen.ReferenceIdeal.Run
import proofs.«100840_j39676907888504_1_alg».proof.Proof.Gen.ReferenceIdeal.Read
import proofs.«100840_j39676907888504_1_alg».proof.Proof.Gen.Pre_finite_inputs
import proofs.«100840_j39676907888504_1_alg».proof.Proof.KernelRun
import proofs.«100840_j39676907888504_1_alg».proof.Proof.RefSide
import proofs.«100840_j39676907888504_1_alg».proof.Proof.MeanBridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end at `regionLoss` of the same channel mean and the same mask. -/
theorem algebraic : Cert.algebraic_KernelIdeal_ReferenceIdeal := by
  intro m ρ m' ρ' _ hagree
  refine ⟨fun c => Cert.RegionLoss.kernelResult (F := Ideal) m c, Cert.RegionLoss.kernel_run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.RegionLoss.ref_result, (hagree c).1, (hagree c).2.1, (hagree c).2.2, ← Cert.RegionLoss.kernelMean_eq_refMean]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
